-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128x62 : Shape := ⟨3, ![4096, 128, 62]⟩
abbrev S4096x128x5x6 : Shape := ⟨4, ![4096, 128, 5, 6]⟩
abbrev S4096x128x5 : Shape := ⟨3, ![4096, 128, 5]⟩
abbrev S68x128 : Shape := ⟨2, ![68, 128]⟩
abbrev S128 : Shape := ⟨1, ![128]⟩
abbrev S_ : Shape := ⟨0, ![]⟩

class Facts : Prop where
  bcast_S_S4096x128x62 : S_.BroadcastsInDim S4096x128x62 (![] : Fin 0 → Fin S4096x128x62.rank)
  reducesTo_S4096x128x62_S_d0_1_2 : S4096x128x62.ReducesTo [0, 1, 2] S_
  h_S_ : 0 < S_.numel
  bcast_S_S4096x128x5x6 : S_.BroadcastsInDim S4096x128x5x6 (![] : Fin 0 → Fin S4096x128x5x6.rank)
  reducesTo_S4096x128x5x6_S_d0_1_2_3 : S4096x128x5x6.ReducesTo [0, 1, 2, 3] S_
  bcast_S_S68x128 : S_.BroadcastsInDim S68x128 (![] : Fin 0 → Fin S68x128.rank)
  reducesTo_S68x128_S_d0_1 : S68x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S4096x128x62 .f32) (main_arg1 : FVec F S4096x128x5x6 .f32) (main_arg2 : IVec S4096x128x5 32) (main_arg3 : FVec F S68x128 .f32) (main_arg4 : FVec F S128 .f32) : IVec S_ 1 :=
  let main_v0 : FVec F S4096x128x62 .f32 := Host.absf main_arg0
  let main_cst : FVec F S_ .f32 := constant S_ .f32 0x7F800000#32
  let main_v1 : FVec F S4096x128x62 .f32 := broadcastInDim S4096x128x62 ![] bcast_S_S4096x128x62 main_cst
  let main_v2 : IVec S4096x128x62 1 := cmpf .olt main_v0 main_v1
  let main_c : IVec S_ 1 := constantI S_ 1 1#1
  let main_v3 : IVec S_ 1 := (fun x v => Host.reduce IntOp.andi x v reducesTo_S4096x128x62_S_d0_1_2 h_S_) main_v2 main_c
  let main_v4 : FVec F S4096x128x5x6 .f32 := Host.absf main_arg1
  let main_cst_0 : FVec F S_ .f32 := constant S_ .f32 0x7F800000#32
  let main_v5 : FVec F S4096x128x5x6 .f32 := broadcastInDim S4096x128x5x6 ![] bcast_S_S4096x128x5x6 main_cst_0
  let main_v6 : IVec S4096x128x5x6 1 := cmpf .olt main_v4 main_v5
  let main_c_1 : IVec S_ 1 := constantI S_ 1 1#1
  let main_v7 : IVec S_ 1 := (fun x v => Host.reduce IntOp.andi x v reducesTo_S4096x128x5x6_S_d0_1_2_3 h_S_) main_v6 main_c_1
  let main_v8 : IVec S_ 1 := andi main_v3 main_v7
  let main_v9 : FVec F S68x128 .f32 := Host.absf main_arg3
  let main_cst_2 : FVec F S_ .f32 := constant S_ .f32 0x7F800000#32
  let main_v10 : FVec F S68x128 .f32 := broadcastInDim S68x128 ![] bcast_S_S68x128 main_cst_2
  let main_v11 : IVec S68x128 1 := cmpf .olt main_v9 main_v10
  let main_c_3 : IVec S_ 1 := constantI S_ 1 1#1
  let main_v12 : IVec S_ 1 := (fun x v => Host.reduce IntOp.andi x v reducesTo_S68x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S4096x128x62 : Shape := ⟨3, ![4096, 128, 62]⟩
abbrev S4096x128x5x6 : Shape := ⟨4, ![4096, 128, 5, 6]⟩
abbrev S4096x128x5 : Shape := ⟨3, ![4096, 128, 5]⟩
abbrev S68x128 : Shape := ⟨2, ![68, 128]⟩
abbrev S128 : Shape := ⟨1, ![128]⟩
abbrev S4096x128x30 : Shape := ⟨3, ![4096, 128, 30]⟩
abbrev S_ : Shape := ⟨0, ![]⟩
abbrev S4096x128 : Shape := ⟨2, ![4096, 128]⟩
abbrev S62x128 : Shape := ⟨2, ![62, 128]⟩
abbrev S6x128 : Shape := ⟨2, ![6, 128]⟩
abbrev S1x128 : Shape := ⟨2, ![1, 128]⟩
abbrev S32x128x62 : Shape := ⟨3, ![32, 128, 62]⟩
abbrev S32x128x30 : Shape := ⟨3, ![32, 128, 30]⟩
abbrev S32x128 : Shape := ⟨2, ![32, 128]⟩
abbrev S32x128x6 : Shape := ⟨3, ![32, 128, 6]⟩
abbrev S4096x62 : Shape := ⟨2, ![4096, 62]⟩
abbrev S4096x6 : Shape := ⟨2, ![4096, 6]⟩
abbrev S32x128x128 : Shape := ⟨3, ![32, 128, 128]⟩
abbrev S32x128x1 : Shape := ⟨3, ![32, 128, 1]⟩

abbrev nBuf : Space → Nat
  | .hbm => 20
  | .vmem => 11
  | .smem => 0
  | _ => 0

abbrev bufTy : (tb : Table) → Fin (tcTables nBuf tb) → BufTy
  | .hbm, ⟨0, _⟩ => ⟨S4096x128x62, .f32⟩
  | .hbm, ⟨1, _⟩ => ⟨S4096x128x5x6, .f32⟩
  | .hbm, ⟨2, _⟩ => ⟨S4096x128x5, .i32⟩
  | .hbm, ⟨3, _⟩ => ⟨S68x128, .f32⟩
  | .hbm, ⟨4, _⟩ => ⟨S128, .f32⟩
  | .hbm, ⟨5, _⟩ => ⟨S4096x128x30, .f32⟩
  | .hbm, ⟨6, _⟩ => ⟨S_, .i32⟩
  | .hbm, ⟨7, _⟩ => ⟨S4096x128x5, .i32⟩
  | .hbm, ⟨8, _⟩ => ⟨S4096x128x5, .i1⟩
  | .hbm, ⟨9, _⟩ => ⟨S4096x128x5, .i32⟩
  | .hbm, ⟨10, _⟩ => ⟨S_, .i32⟩
  | .hbm, ⟨11, _⟩ => ⟨S4096x128, .i32⟩
  | .hbm, ⟨12, _⟩ => ⟨S_, .i32⟩
  | .hbm, ⟨13, _⟩ => ⟨S4096x128, .i32⟩
  | .hbm, ⟨14, _⟩ => ⟨S4096x128, .i1⟩
  | .hbm, ⟨15, _⟩ => ⟨S4096x128, .f32⟩
  | .hbm, ⟨16, _⟩ => ⟨S62x128, .f32⟩
  | .hbm, ⟨17, _⟩ => ⟨S6x128, .f32⟩
  | .hbm, ⟨18, _⟩ => ⟨S1x128, .f32⟩
  | .hbm, ⟨19, _⟩ => ⟨S4096x128, .f32⟩
  | .local _ .vmem, ⟨0, _⟩ => ⟨S32x128x62, .f32⟩
  | .local _ .vmem, ⟨1, _⟩ => ⟨S32x128x62, .f32⟩
  | .local _ .vmem, ⟨2, _⟩ => ⟨S32x128x30, .f32⟩
  | .local _ .vmem, ⟨3, _⟩ => ⟨S32x128x30, .f32⟩
  | .local _ .vmem, ⟨4, _⟩ => ⟨S32x128, .f32⟩
  | .local _ .vmem, ⟨5, _⟩ => ⟨S32x128, .f32⟩
  | .local _ .vmem, ⟨6, _⟩ => ⟨S62x128, .f32⟩
  | .local _ .vmem, ⟨7, _⟩ => ⟨S6x128, .f32⟩
  | .local _ .vmem, ⟨8, _⟩ => ⟨S1x128, .f32⟩
  | .local _ .vmem, ⟨9, _⟩ => ⟨S32x128, .f32⟩
  | .local _ .vmem, ⟨10, _⟩ => ⟨S32x128, .f32⟩
  | _, _ => ⟨S4096x128x62, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x128x62 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128x30 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S62x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S4096x128x5x6_S4096x128x30 : S4096x128x5x6.ShapeCasts S4096x128x30
  bcast_S_S4096x128x5 : S_.BroadcastsInDim S4096x128x5 (![] : Fin 0 → Fin S4096x128x5.rank)
  natLt_1_32 : 1 < 32
  reducesTo_S4096x128x5_S4096x128_d2 : S4096x128x5.ReducesTo [2] S4096x128
  h_S_ : 0 < S_.numel
  bcast_S_S4096x128 : S_.BroadcastsInDim S4096x128 (![] : Fin 0 → Fin S4096x128.rank)
  slices_S68x128_S62x128_0_0 : S68x128.Slices ![0, 0] S62x128
  slices_S68x128_S6x128_62_0 : S68x128.Slices ![62, 0] S6x128
  shapeCasts_S128_S1x128 : S128.ShapeCasts S1x128
  inb_S32x128x30_S32x128x30_0_0_0 : ∀ a, (![0, 0, 0] : Fin 3 → Nat) a + S32x128x30.size a ≤ S32x128x30.size a
  h_S32x128x30 : 0 < S32x128x30.numel
  shapeCasts_S32x128x30_S32x128x30 : S32x128x30.ShapeCasts S32x128x30
  slices_S32x128x30_o0_0_0_S32x128x6 : S32x128x30.Slices ![0, 0, 0] S32x128x6
  slices_S32x128x30_o0_0_6_S32x128x6 : S32x128x30.Slices ![0, 0, 6] S32x128x6
  slices_S32x128x30_o0_0_12_S32x128x6 : S32x128x30.Slices ![0, 0, 12] S32x128x6
  slices_S32x128x30_o0_0_18_S32x128x6 : S32x128x30.Slices ![0, 0, 18] S32x128x6
  slices_S32x128x30_o0_0_24_S32x128x6 : S32x128x30.Slices ![0, 0, 24] S32x128x6
  inb_S32x128x62_S32x128x62_0_0_0 : ∀ a, (![0, 0, 0] : Fin 3 → Nat) a + S32x128x62.size a ≤ S32x128x62.size a
  h_S32x128x62 : 0 < S32x128x62.numel
  shapeCasts_S32x128x62_S4096x62 : S32x128x62.ShapeCasts S4096x62
  bitsLt_bf16_f32 : FTy.bits .bf16 < FTy.bits .f32
  shapeCasts_S32x128x6_S4096x6 : S32x128x6.ShapeCasts S4096x6
  inb_S62x128_S62x128_0_0 : ∀ a, (![0, 0] : Fin 2 → Nat) a + S62x128.size a ≤ S62x128.size a
  h_S62x128 : 0 < S62x128.numel
  shapeCasts_S62x128_S62x128 : S62x128.ShapeCasts S62x128
  inb_S6x128_S6x128_0_0 : ∀ a, (![0, 0] : Fin 2 → Nat) a + S6x128.size a ≤ S6x128.size a
  h_S6x128 : 0 < S6x128.numel
  shapeCasts_S6x128_S6x128 : S6x128.ShapeCasts S6x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  shapeCasts_S4096x128_S32x128x128 : S4096x128.ShapeCasts S32x128x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  shapeCasts_S32x128_S32x128x1 : S32x128.ShapeCasts S32x128x1
  broadcasts_S32x128x1_S32x128x128 : S32x128x1.Broadcasts S32x128x128
  reduces_S32x128x128_S32x128 : S32x128x128.Reduces [1] S32x128
  dot_S4096x62_S62x128_S4096x128_1_0_0_1_n_n_wf : DotDims.WF S4096x62 S62x128 S4096x128 [1] [0] [0] [1] [] []
  dot_S4096x6_S6x128_S4096x128_1_0_0_1_n_n_wf : DotDims.WF S4096x6 S6x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128x62.size a ≤ S4096x128x62.size a
  hwx0_0 : ∀ i : grid0.Coords, EltTy.bits .f32 = 32 ∨ (Rect.block (s := S4096x128x62) S32x128x62.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x128x30.size a ≤ S4096x128x30.size a
  hwx0_1 : ∀ i : grid0.Coords, EltTy.bits .f32 = 32 ∨ (Rect.block (s := S4096x128x30) S32x128x30.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S4096x128.size a
  hwx0_2 : ∀ i : grid0.Coords, EltTy.bits .f32 = 32 ∨ (Rect.block (s := S4096x128) S32x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S62x128.size a ≤ S62x128.size a
  hwx0_3 : ∀ i : grid0.Coords, EltTy.bits .f32 = 32 ∨ (Rect.block (s := S62x128) S62x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S6x128.size a ≤ S6x128.size a
  hwx0_4 : ∀ i : grid0.Coords, EltTy.bits .f32 = 32 ∨ (Rect.block (s := S6x128) S6x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S32x128.size a ≤ S4096x128.size a
  hwx0_6 : ∀ i : grid0.Coords, EltTy.bits .f32 = 32 ∨ (Rect.block (s := S4096x128) S32x128.size (cc0_transform_6 i) (hinb0_6 i)).WholeWords (EltTy.packing .f32)

variable [Facts₀]

def dot_S4096x62_S62x128_S4096x128_1_0_0_1_n_n : DotDims S4096x62 S62x128 S4096x128 where
  lhsContracting := [1]
  rhsContracting := [0]
  lhsNonContracting := [0]
  rhsNonContracting := [1]
  lhsBatch := []
  rhsBatch := []
  wf := dot_S4096x62_S62x128_S4096x128_1_0_0_1_n_n_wf
def dot_S4096x6_S6x128_S4096x128_1_0_0_1_n_n : DotDims S4096x6 S6x128 S4096x128 where
  lhsContracting := [1]
  rhsContracting := [0]
  lhsNonContracting := [0]
  rhsNonContracting := [1]
  lhsBatch := []
  rhsBatch := []
  wf := dot_S4096x6_S6x128_S4096x128_1_0_0_1_n_n_wf

abbrev win0_0 : Pipeline.Window sig grid0 :=
  Pipeline.Window.ofSpec (Memref.whole main_arg0) S32x128x62.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x128x30.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S32x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S62x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S6x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S32x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x128x62 : Shape := ⟨3, ![4096, 128, 62]⟩
abbrev S4096x128x5x6 : Shape := ⟨4, ![4096, 128, 5, 6]⟩
abbrev S4096x128x5 : Shape := ⟨3, ![4096, 128, 5]⟩
abbrev S68x128 : Shape := ⟨2, ![68, 128]⟩
abbrev S128 : Shape := ⟨1, ![128]⟩
abbrev S_ : Shape := ⟨0, ![]⟩
abbrev S4096x128 : Shape := ⟨2, ![4096, 128]⟩
abbrev S4096x128x1 : Shape := ⟨3, ![4096, 128, 1]⟩
abbrev S4096x128x6 : Shape := ⟨3, ![4096, 128, 6]⟩
abbrev S4096x128x68 : Shape := ⟨3, ![4096, 128, 68]⟩
abbrev S4096x128x128 : Shape := ⟨3, ![4096, 128, 128]⟩
abbrev S1x1x128 : Shape := ⟨3, ![1, 1, 128]⟩

abbrev nBuf : Space → Nat
  | .hbm => 27
  | .vmem => 0
  | .smem => 0
  | _ => 0

abbrev bufTy : (tb : Table) → Fin (tcTables nBuf tb) → BufTy
  | .hbm, ⟨0, _⟩ => ⟨S4096x128x62, .f32⟩
  | .hbm, ⟨1, _⟩ => ⟨S4096x128x5x6, .f32⟩
  | .hbm, ⟨2, _⟩ => ⟨S4096x128x5, .i32⟩
  | .hbm, ⟨3, _⟩ => ⟨S68x128, .f32⟩
  | .hbm, ⟨4, _⟩ => ⟨S128, .f32⟩
  | .hbm, ⟨5, _⟩ => ⟨S_, .i32⟩
  | .hbm, ⟨6, _⟩ => ⟨S4096x128x5, .i32⟩
  | .hbm, ⟨7, _⟩ => ⟨S4096x128x5, .i1⟩
  | .hbm, ⟨8, _⟩ => ⟨S4096x128x5, .i32⟩
  | .hbm, ⟨9, _⟩ => ⟨S_, .i32⟩
  | .hbm, ⟨10, _⟩ => ⟨S4096x128, .i32⟩
  | .hbm, ⟨11, _⟩ => ⟨S4096x128x1, .i32⟩
  | .hbm, ⟨12, _⟩ => ⟨S_, .i32⟩
  | .hbm, ⟨13, _⟩ => ⟨S4096x128x1, .i32⟩
  | .hbm, ⟨14, _⟩ => ⟨S4096x128x1, .i1⟩
  | .hbm, ⟨15, _⟩ => ⟨S4096x128x1, .f32⟩
  | .hbm, ⟨16, _⟩ => ⟨S_, .f32⟩
  | .hbm, ⟨17, _⟩ => ⟨S4096x128x6, .f32⟩
  | .hbm, ⟨18, _⟩ => ⟨S4096x128x68, .f32⟩
  | .hbm, ⟨19, _⟩ => ⟨S4096x128x128, .f32⟩
  | .hbm, ⟨20, _⟩ => ⟨S1x1x128, .f32⟩
  | .hbm, ⟨21, _⟩ => ⟨S4096x128x128, .f32⟩
  | .hbm, ⟨22, _⟩ => ⟨S4096x128x128, .f32⟩
  | .hbm, ⟨23, _⟩ => ⟨S4096x128x128, .f32⟩
  | .hbm, ⟨24, _⟩ => ⟨S4096x128x128, .f32⟩
  | .hbm, ⟨25, _⟩ => ⟨S_, .f32⟩
  | .hbm, ⟨26, _⟩ => ⟨S4096x128, .f32⟩
  | _, _ => ⟨S4096x128x62, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩

abbrev nD : Nat := 1
abbrev τ : Topo := Topo.v7x

variable {F : FTy → Type} [FloatOps F]

class Facts₀ : Prop where
  bcast_S_S4096x128x5 : S_.BroadcastsInDim S4096x128x5 (![] : Fin 0 → Fin S4096x128x5.rank)
  natLt_1_32 : 1 < 32
  reducesTo_S4096x128x5_S4096x128_d2 : S4096x128x5.ReducesTo [2] S4096x128
  h_S_ : 0 < S_.numel
  bcast_S4096x128_S4096x128x1_0_1 : S4096x128.BroadcastsInDim S4096x128x1 (![0, 1] : Fin 2 → Fin S4096x128x1.rank)
  bcast_S_S4096x128x1 : S_.BroadcastsInDim S4096x128x1 (![] : Fin 0 → Fin S4096x128x1.rank)
  reducesTo_S4096x128x5x6_S4096x128x6_d2 : S4096x128x5x6.ReducesTo [2] S4096x128x6
  concatenates_S4096x128x62_S4096x128x6_S4096x128x68_d2 : Shape.Concatenates [S4096x128x62, S4096x128x6] S4096x128x68 2
  bcast_S128_S1x1x128_2 : S128.BroadcastsInDim S1x1x128 (![2] : Fin 1 → Fin S1x1x128.rank)
  bcast_S1x1x128_S4096x128x128_0_1_2 : S1x1x128.BroadcastsInDim S4096x128x128 (![0, 1, 2] : Fin 3 → Fin S4096x128x128.rank)
  bcast_S4096x128x1_S4096x128x128_0_1_2 : S4096x128x1.BroadcastsInDim S4096x128x128 (![0, 1, 2] : Fin 3 → Fin S4096x128x128.rank)
  reducesTo_S4096x128x128_S4096x128_d1 : S4096x128x128.ReducesTo [1] S4096x128
  dot_S4096x128x68_S68x128_S4096x128x128_2_0_01_1_n_n_wf : DotDims.WF S4096x128x68 S68x128 S4096x128x128 [2] [0] [0, 1] [1] [] []

variable [Facts₀]

def dot_S4096x128x68_S68x128_S4096x128x128_2_0_01_1_n_n : DotDims S4096x128x68 S68x128 S4096x128x128 where
  lhsContracting := [2]
  rhsContracting := [0]
  lhsNonContracting := [0, 1]
  rhsNonContracting := [1]
  lhsBatch := []
  rhsBatch := []
  wf := dot_S4096x128x68_S68x128_S4096x128x128_2_0_01_1_n_n_wf

class Facts : Prop extends Facts₀ where

variable [Facts]
-- ==== Proof.Spec.lean ====
/-
  The function both programs compute, stated once over plain index sets.

  For a sample `s`, an atom `a` and an output feature `k`, the dense layer applied to the atom's own features joined with
  its bond features summed over the five neighbour slots is

    dense s a k = Σ_{f < 62} atoms[s, a, f] · W[f, k]  +  Σ_{g < 6} (Σ_{d < 5} bonds[s, a, d, g]) · W[62 + g, k]  +  b[k],

  and the result pools it over the atoms, each weighted by a per-atom factor `μ[s, a]` (one for an atom with a real
  neighbour, zero otherwise; here it is only an array of extended reals):

    G[s, k] = Σ_{a < 128} dense s a k · μ[s, a].

  Two rearrangements of finite sums relate this form to the ways the two programs lay the same sums out: a sum over the 68
  rows of the weight splits into its first 62 and its last 6 rows, and a left-nested sum of five terms is the sum over the
  five slots. Both hold in any commutative additive monoid, so in the extended reals without any finiteness.
-/
import Idealize.ShloMosaic.Lib.ValueIdx
import Idealize.ShloMosaic.PureOps.Ideal.Laws

noncomputable section

open scoped BigOperators

namespace Cert.Spec

open Idealize.ShloMosaic Idealize.ShloMosaic.ValueIdx

/-- Atom features, one row of 62 per (sample, atom). -/
abbrev ShAtoms : Shape := ⟨3, ![4096, 128, 62]⟩
/-- Bond features, five neighbour slots of 6 per (sample, atom). -/
abbrev ShBonds : Shape := ⟨4, ![4096, 128, 5, 6]⟩
/-- The dense layer's weight: 62 atom rows then 6 bond rows, 128 output features. -/
abbrev ShW : Shape := ⟨2, ![68, 128]⟩
/-- Its bias. -/
abbrev ShB : Shape := ⟨1, ![128]⟩
/-- The per-atom factor, and also the result: both are `[4096, 128]`. -/
abbrev ShOut : Shape := ⟨2, ![4096, 128]⟩

/-- Weight row of atom feature `f`. -/
abbrev rowA (f : Fin 62) : Fin 68 := ⟨f.val, Nat.lt_of_lt_of_le f.isLt (by decide)⟩
/-- Weight row of bond feature `g`: the bond rows follow the 62 atom rows. -/
abbrev rowB (g : Fin 6) : Fin 68 := ⟨62 + g.val, by have := g.isLt; omega⟩

/-- Bond feature `g` of neighbour slot `d` in the flattened `[5, 6] → 30` bond row: slot-major. -/
abbrev lane (d : Fin 5) (g : Fin 6) : Fin 30 := ⟨6 * d.val + g.val, by have := d.isLt; have := g.isLt; omega⟩
/-- Atom `a` of the `p`-th sample of a tile of 32 samples, in the tile flattened to `32 · 128` rows: sample-major. -/
abbrev row (p : Fin 32) (a : Fin 128) : Fin 4096 := ⟨p.val * 128 + a.val, by have := p.isLt; have := a.isLt; omega⟩
/-- Sample `p` of tile `t` among all 4096 samples. -/
abbrev sample (t : Fin 128) (p : Fin 32) : Fin 4096 := ⟨32 * t.val + p.val, by have := t.isLt; have := p.isLt; omega⟩

/-- The dense layer at (sample, atom, output feature). -/
def dense (atoms : FVec Ideal ShAtoms .f32) (bonds : FVec Ideal ShBonds .f32) (W : FVec Ideal ShW .f32) (b : FVec Ideal ShB .f32)
    (s : Fin 4096) (a : Fin 128) (k : Fin 128) : EReal :=
  ((∑ f : Fin 62, atoms (ix3 s a f) * W (ix2 (rowA f) k))
    + ∑ g : Fin 6, (∑ d : Fin 5, bonds (ix4 s a d g)) * W (ix2 (rowB g) k)) + b (ix1 k)

/-- The weighted pool over the atoms at (sample, output feature). -/
def pooled (atoms : FVec Ideal ShAtoms .f32) (bonds : FVec Ideal ShBonds .f32) (μ : FVec Ideal ShOut .f32)
    (W : FVec Ideal ShW .f32) (b : FVec Ideal ShB .f32) (s : Fin 4096) (k : Fin 128) : EReal :=
  ∑ a : Fin 128, dense atoms bonds W b s a k * μ (ix2 s a)

/-- The result array. -/
def G (atoms : FVec Ideal ShAtoms .f32) (bonds : FVec Ideal ShBonds .f32) (μ : FVec Ideal ShOut .f32)
    (W : FVec Ideal ShW .f32) (b : FVec Ideal ShB .f32) : FVec Ideal ShOut .f32 :=
  fun i => pooled atoms bonds μ W b ⟨(i 0).val, idx2_lt0 i⟩ ⟨(i 1).val, idx2_lt1 i⟩

/-- `G` at an index given by coordinates. -/
theorem G_ix2 (atoms : FVec Ideal ShAtoms .f32) (bonds : FVec Ideal ShBonds .f32) (μ : FVec Ideal ShOut .f32)
    (W : FVec Ideal ShW .f32) (b : FVec Ideal ShB .f32) (s : Fin 4096) (k : Fin 128) :
    G atoms bonds μ W b (ix2 s k) = pooled atoms bonds μ W b s k := rfl

/-- A sum over the 68 weight rows is the sum over the 62 atom rows plus the sum over the 6 bond rows. -/
theorem sum_rows_split {M : Type*} [AddCommMonoid M] (u : Fin 68 → M) :
    ∑ r : Fin 68, u r = (∑ f : Fin 62, u (rowA f)) + ∑ g : Fin 6, u (rowB g) :=
  Fin.sum_univ_add (a := 62) (b := 6) u

/-- Five terms added left to right are the sum over the five slots. -/
theorem sum_slots {M : Type*} [AddCommMonoid M] (c : Fin 5 → M) :
    (((c 0 + c 1) + c 2) + c 3) + c 4 = ∑ d : Fin 5, c d :=
  (Fin.sum_univ_five c).symm

end Cert.Spec

end
-- ==== Proof.LibRank3.lean ====
/-
  Rank-3 values read at an index given by coordinates.

  A tile `[a, b, c]` of rows grouped in two levels meets a matrix product as the matrix `[a·b, c]` of all its rows, and the
  product's rows are regrouped afterwards; a per-row weight `[a, b]` meets the tile as the column `[a, b, 1]` broadcast along
  the last axis; and the pool over the middle axis leaves `[a, c]`. Each lemma states what the re-laid value holds at
  coordinates `(p, q, e)` in terms of the original, for indices built by `ix2` / `ix3`, so that it applies to a printed
  operation by unification. Generic in the extents and (but for the sum) in the element type.
-/
import Idealize.ShloMosaic.Lib.ValueLayout
import Idealize.ShloMosaic.PureOps.Ideal.Laws

open scoped BigOperators

namespace Cert.Lib.Rank3

open Idealize.ShloMosaic Idealize.ShloMosaic.ValueIdx

variable {α : Type}

/-- A rank-3 array cut along its LAST axis from `o` reads, at `(p, q, j)`, the source at `(p, q, k)` with `k = o + j`. -/
theorem slice3_axis2_apply {n0 n1 n2 m : ℕ} (o : ℕ) (X : (⟨3, ![n0, n1, n2]⟩ : Shape).Idx → α)
    (h : (⟨3, ![n0, n1, n2]⟩ : Shape).Slices ![0, 0, o] ⟨3, ![n0, n1, m]⟩)
    (p : Fin n0) (q : Fin n1) (j : Fin m) (k : Fin n2) (hk : k.val = o + j.val) :
    extractStridedSlice ⟨3, ![n0, n1, m]⟩ ![0, 0, o] X h (ix3 p q j) = X (ix3 p q k) :=
  extractStridedSlice_apply _ _ _ _ _ (fun ax => by
    match ax with
    | ⟨0, _⟩ => exact (Nat.zero_add _).symm
    | ⟨1, _⟩ => exact (Nat.zero_add _).symm
    | ⟨2, _⟩ => exact hk)

/-- An `[a, b, c]` array cast to the matrix `[n, c]` of its `n = a · b` rows reads, at row `r = p · b + q` and column `e`,
    the array at `(p, q, e)`: both positions are `(p · b + q) · c + e` in row-major order. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (e : Fin c) (r : Fin n)
    (hr : r.val = p.val * b + q.val) : shapeCast ⟨2, ![n, c]⟩ x h (ix2 r e) = x (ix3 p q e) :=
  shapeCast_apply x h _ _ (by
    rw [Shape.rowMajor_val_three, Shape.rowMajor_val_two]
    show (p.val * b + q.val) * c + e.val = r.val * c + e.val
    rw [hr])

/-- The way back: an `[n, c]` matrix cast to `[a, b, c]` reads, at `(p, q, e)`, the matrix at row `r = p · b + q`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (e : Fin c) (r : Fin n)
    (hr : r.val = p.val * b + q.val) : shapeCast ⟨3, ![a, b, c]⟩ x h (ix3 p q e) = x (ix2 r e) :=
  shapeCast_apply x h _ _ (by
    rw [Shape.rowMajor_val_three, Shape.rowMajor_val_two]
    show r.val * c + e.val = (p.val * b + q.val) * c + e.val
    rw [hr])

/-- An `[a, b]` array cast to the column `[a, b, 1]` reads, at `(p, q, u)`, the array at `(p, q)`, whatever the unit
    coordinate `u`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An `[a, b, 1]` column broadcast to `[a, b, c]` reads, at `(p, q, e)`, the column's entry at `(p, q)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (e : Fin c) :
    broadcastTo ⟨3, ![a, b, c]⟩ v h (ix3 p q e) = v (ix3 p q (0 : Fin 1)) := by
  refine broadcastTo_apply v h (ix3 p q e) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- The sum over the MIDDLE axis of an `[a, b, c]` block (a float `multi_reduction <add>` over axis 1 from the neutral
    accumulator), read on the extended reals at `(p, e)`, is the finite sum over `q` of the block at `(p, q, e)`. -/
theorem midSum_apply {φ : FTy} {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (p : Fin a) (e : Fin c) :
    multiReduction .add [1] ⟨2, ![a, c]⟩ src acc h hφ hacc (ix2 p e) = ∑ q : Fin b, src (ix3 p q e) :=
  (Ideal.multiReduction_add_single src acc h hφ hacc (ix2 p e)).trans
    (Finset.sum_congr rfl fun q _ => congrArg src (funext fun d => Fin.ext (by
      match d with
      | ⟨0, _⟩ => rfl
      | ⟨1, _⟩ => rfl
      | ⟨2, _⟩ => rfl)))

end Cert.Lib.Rank3
-- ==== Proof.Payload.lean ====
/-
  What the kernel body stores, read at one entry.

  The body works on a tile of 32 samples. It adds the five neighbour slots of the bond row (five slices of width 6 of
  the flattened row of 30), flattens the tile's `32 · 128` atoms into the rows of two matrices (62 atom features, 6 summed
  bond features), multiplies them with the atom rows and the bond rows of the weight, adds the two products and the bias
  row, regroups the rows by sample, weights each atom by its factor and sums over the atoms. At the extended reals the
  format changes are the identity and each matrix product into a zero accumulator is the plain sum over the contracted
  feature, so the stored entry at (sample `p` of the tile, output feature `k`) is

    Σ_a ((Σ_f x[p, a, f] · wa[f, k] + Σ_g (Σ_d y[p, a, 6d + g]) · wb[g, k]) + bias[0, k]) · μ[p, a].
-/
import proofs.«101679_j13434657702340_1_alg».proof.Proof.Gen.KernelIdeal.Skeleton
import proofs.«101679_j13434657702340_1_alg».proof.Proof.Spec
import proofs.«101679_j13434657702340_1_alg».proof.Proof.LibRank3
import Idealize.ShloMosaic.Lib.ValueLayout
import Idealize.ShloMosaic.Lib.Pipeline.Value
import Idealize.ShloMosaic.PureOps.Ideal.Laws

noncomputable section

open scoped BigOperators

namespace Cert.KernelSide

open Cert.KernelIdeal Cert.KernelIdeal.Gen
open Idealize.ShloMosaic Idealize.ShloMosaic.ValueIdx Cert.Spec Cert.Lib.Rank3

/-! ## The two matrix products at an entry -/

theorem lhsA_0 (i : S4096x128.Idx) (q : dot_S4096x62_S62x128_S4096x128_1_0_0_1_n_n.contr.Idx) :
    (dot_S4096x62_S62x128_S4096x128_1_0_0_1_n_n.lhsIdx i q 0).val = (i 0).val := by
  unfold DotDims.lhsIdx
  rw [dif_neg (show ¬(0 : Fin S4096x62.rank) ∈ dot_S4096x62_S62x128_S4096x128_1_0_0_1_n_n.lhsBatch by decide), dif_pos (show (0 : Fin S4096x62.rank) ∈ dot_S4096x62_S62x128_S4096x128_1_0_0_1_n_n.lhsNonContracting by decide)]
  rfl
theorem lhsA_1 (i : S4096x128.Idx) (q : dot_S4096x62_S62x128_S4096x128_1_0_0_1_n_n.contr.Idx) :
    (dot_S4096x62_S62x128_S4096x128_1_0_0_1_n_n.lhsIdx i q 1).val = (q ⟨0, by decide⟩).val :=
  dot_S4096x62_S62x128_S4096x128_1_0_0_1_n_n.lhsIdx_val_of_single rfl i q
theorem rhsA_0 (i : S4096x128.Idx) (q : dot_S4096x62_S62x128_S4096x128_1_0_0_1_n_n.contr.Idx) :
    (dot_S4096x62_S62x128_S4096x128_1_0_0_1_n_n.rhsIdx i q 0).val = (q ⟨0, by decide⟩).val :=
  dot_S4096x62_S62x128_S4096x128_1_0_0_1_n_n.rhsIdx_val_of_single rfl i q
theorem rhsA_1 (i : S4096x128.Idx) (q : dot_S4096x62_S62x128_S4096x128_1_0_0_1_n_n.contr.Idx) :
    (dot_S4096x62_S62x128_S4096x128_1_0_0_1_n_n.rhsIdx i q 1).val = (i 1).val := by
  unfold DotDims.rhsIdx
  rw [dif_neg (show ¬(1 : Fin S62x128.rank) ∈ dot_S4096x62_S62x128_S4096x128_1_0_0_1_n_n.rhsBatch by decide), dif_pos (show (1 : Fin S62x128.rank) ∈ dot_S4096x62_S62x128_S4096x128_1_0_0_1_n_n.rhsNonContracting by decide)]
  rfl

/-- The atom product at (row `j`, feature `k`): the sum over the 62 atom features. -/
theorem atomProduct_apply (l : FVec Ideal S4096x62 .bf16) (r : FVec Ideal S62x128 .bf16) (j : Fin 4096) (k : Fin 128) :
    matmul dot_S4096x62_S62x128_S4096x128_1_0_0_1_n_n none l r (constant (F := Ideal) S4096x128 .f32 0x00000000#32) (ix2 j k)
      = ∑ f : Fin 62, l (ix2 j f) * r (ix2 f k) := by
  simp only [matmul]
  rw [Ideal.matmul_constant_zero_apply, ← Equiv.sum_comp (contrEquiv1 dot_S4096x62_S62x128_S4096x128_1_0_0_1_n_n 62 rfl rfl).symm]
  refine Finset.sum_congr rfl fun f _ => ?_
  have hf := contrEquiv1_symm_val dot_S4096x62_S62x128_S4096x128_1_0_0_1_n_n 62 rfl rfl f
  have el : dot_S4096x62_S62x128_S4096x128_1_0_0_1_n_n.lhsIdx (ix2 j k) ((contrEquiv1 dot_S4096x62_S62x128_S4096x128_1_0_0_1_n_n 62 rfl rfl).symm f) = ix2 j f := funext fun a => Fin.ext (by
    match a with
    | ⟨0, _⟩ => exact lhsA_0 _ _
    | ⟨1, _⟩ => exact (lhsA_1 _ _).trans hf)
  have er : dot_S4096x62_S62x128_S4096x128_1_0_0_1_n_n.rhsIdx (ix2 j k) ((contrEquiv1 dot_S4096x62_S62x128_S4096x128_1_0_0_1_n_n 62 rfl rfl).symm f) = ix2 f k := funext fun a => Fin.ext (by
    match a with
    | ⟨0, _⟩ => exact (rhsA_0 _ _).trans hf
    | ⟨1, _⟩ => exact rhsA_1 _ _)
  rw [el, er]

theorem lhsB_0 (i : S4096x128.Idx) (q : dot_S4096x6_S6x128_S4096x128_1_0_0_1_n_n.contr.Idx) :
    (dot_S4096x6_S6x128_S4096x128_1_0_0_1_n_n.lhsIdx i q 0).val = (i 0).val := by
  unfold DotDims.lhsIdx
  rw [dif_neg (show ¬(0 : Fin S4096x6.rank) ∈ dot_S4096x6_S6x128_S4096x128_1_0_0_1_n_n.lhsBatch by decide), dif_pos (show (0 : Fin S4096x6.rank) ∈ dot_S4096x6_S6x128_S4096x128_1_0_0_1_n_n.lhsNonContracting by decide)]
  rfl
theorem lhsB_1 (i : S4096x128.Idx) (q : dot_S4096x6_S6x128_S4096x128_1_0_0_1_n_n.contr.Idx) :
    (dot_S4096x6_S6x128_S4096x128_1_0_0_1_n_n.lhsIdx i q 1).val = (q ⟨0, by decide⟩).val :=
  dot_S4096x6_S6x128_S4096x128_1_0_0_1_n_n.lhsIdx_val_of_single rfl i q
theorem rhsB_0 (i : S4096x128.Idx) (q : dot_S4096x6_S6x128_S4096x128_1_0_0_1_n_n.contr.Idx) :
    (dot_S4096x6_S6x128_S4096x128_1_0_0_1_n_n.rhsIdx i q 0).val = (q ⟨0, by decide⟩).val :=
  dot_S4096x6_S6x128_S4096x128_1_0_0_1_n_n.rhsIdx_val_of_single rfl i q
theorem rhsB_1 (i : S4096x128.Idx) (q : dot_S4096x6_S6x128_S4096x128_1_0_0_1_n_n.contr.Idx) :
    (dot_S4096x6_S6x128_S4096x128_1_0_0_1_n_n.rhsIdx i q 1).val = (i 1).val := by
  unfold DotDims.rhsIdx
  rw [dif_neg (show ¬(1 : Fin S6x128.rank) ∈ dot_S4096x6_S6x128_S4096x128_1_0_0_1_n_n.rhsBatch by decide), dif_pos (show (1 : Fin S6x128.rank) ∈ dot_S4096x6_S6x128_S4096x128_1_0_0_1_n_n.rhsNonContracting by decide)]
  rfl

/-- The bond product at (row `j`, feature `k`): the sum over the 6 bond features. -/
theorem bondProduct_apply (l : FVec Ideal S4096x6 .bf16) (r : FVec Ideal S6x128 .bf16) (j : Fin 4096) (k : Fin 128) :
    matmul dot_S4096x6_S6x128_S4096x128_1_0_0_1_n_n none l r (constant (F := Ideal) S4096x128 .f32 0x00000000#32) (ix2 j k)
      = ∑ g : Fin 6, l (ix2 j g) * r (ix2 g k) := by
  simp only [matmul]
  rw [Ideal.matmul_constant_zero_apply, ← Equiv.sum_comp (contrEquiv1 dot_S4096x6_S6x128_S4096x128_1_0_0_1_n_n 6 rfl rfl).symm]
  refine Finset.sum_congr rfl fun g _ => ?_
  have hg := contrEquiv1_symm_val dot_S4096x6_S6x128_S4096x128_1_0_0_1_n_n 6 rfl rfl g
  have el : dot_S4096x6_S6x128_S4096x128_1_0_0_1_n_n.lhsIdx (ix2 j k) ((contrEquiv1 dot_S4096x6_S6x128_S4096x128_1_0_0_1_n_n 6 rfl rfl).symm g) = ix2 j g := funext fun a => Fin.ext (by
    match a with
    | ⟨0, _⟩ => exact lhsB_0 _ _
    | ⟨1, _⟩ => exact (lhsB_1 _ _).trans hg)
  have er : dot_S4096x6_S6x128_S4096x128_1_0_0_1_n_n.rhsIdx (ix2 j k) ((contrEquiv1 dot_S4096x6_S6x128_S4096x128_1_0_0_1_n_n 6 rfl rfl).symm g) = ix2 g k := funext fun a => Fin.ext (by
    match a with
    | ⟨0, _⟩ => exact (rhsB_0 _ _).trans hg
    | ⟨1, _⟩ => exact rhsB_1 _ _)
  rw [el, er]

/-! ## The five neighbour slots added -/

/-- The slice of width 6 at offset `6 d` of the bond row is neighbour slot `d`. -/
theorem slot_apply (y : FVec Ideal S32x128x30 .f32) (hc : S32x128x30.ShapeCasts S32x128x30) (o : ℕ) (d : Fin 5) (ho : o = 6 * d.val)
    (h : S32x128x30.Slices ![0, 0, o] S32x128x6) (p : Fin 32) (a : Fin 128) (g : Fin 6) :
    extractStridedSlice S32x128x6 ![0, 0, o] (shapeCast S32x128x30 y hc) h (ix3 p a g) = y (ix3 p a (lane d g)) :=
  (slice3_axis2_apply o _ h p a g (lane d g) (by show 6 * d.val + g.val = o + g.val; omega)).trans
    (congrFun (shapeCast_self y hc) _)

/-! ## The stored entry -/

/-- THE BODY'S STORE at (sample `p` of the tile, output feature `k`). -/
theorem stored_apply (y : Vec Ideal S32x128x30 .f32) (x : Vec Ideal S32x128x62 .f32) (wa : Vec Ideal S62x128 .f32)
    (wb : Vec Ideal S6x128 .f32) (bias : Vec Ideal S1x128 .f32) (μ : Vec Ideal S32x128 .f32) (p : Fin 32) (k : Fin 128) :
    k0_pay1 (F := Ideal) y x wa wb bias μ (ix2 p k)
      = ∑ a : Fin 128, (((∑ f : Fin 62, x (ix3 p a f) * wa (ix2 f k))
          + ∑ g : Fin 6, (∑ d : Fin 5, y (ix3 p a (lane d g))) * wb (ix2 g k)) + bias (ix2 (0 : Fin 1) k)) * μ (ix2 p a) := by
  unfold k0_pay1
  refine (midSum_apply _ _ _ _ _ p k).trans (Finset.sum_congr rfl fun a _ => ?_)
  refine congrArg₂ (· * ·) ?_ ?_
  · -- the dense layer at row `row p a`, regrouped by sample
    refine (shapeCast_nc_abc_apply _ _ p a k (row p a) rfl).trans ?_
    refine congrArg₂ (· + ·) (congrArg₂ (· + ·) ?_ ?_) ?_
    · refine (atomProduct_apply _ _ (row p a) k).trans (Finset.sum_congr rfl fun f _ => congrArg₂ (· * ·) ?_ ?_)
      · exact shapeCast_abc_nc_apply x _ p a f (row p a) rfl
      · exact congrFun (shapeCast_self wa _) _
    · refine (bondProduct_apply _ _ (row p a) k).trans (Finset.sum_congr rfl fun g _ => congrArg₂ (· * ·) ?_ ?_)
      · refine (truncf_apply (s := S4096x6) (φ := .f32) (ψ := .bf16) _ _ _).trans ?_
        refine (shapeCast_abc_nc_apply _ _ p a g (row p a) rfl).trans ?_
        refine Eq.trans ?_ (sum_slots fun d => y (ix3 p a (lane d g)))
        exact congrArg₂ (· + ·) (congrArg₂ (· + ·) (congrArg₂ (· + ·) (congrArg₂ (· + ·)
          (slot_apply y _ 0 0 rfl _ p a g) (slot_apply y _ 6 1 rfl _ p a g)) (slot_apply y _ 12 2 rfl _ p a g))
          (slot_apply y _ 18 3 rfl _ p a g)) (slot_apply y _ 24 4 rfl _ p a g)
      · exact congrFun (shapeCast_self wb _) _
    · exact (broadcastTo_1b_ab_apply _ _ (row p a) k).trans (congrFun (shapeCast_self bias _) _)
  · -- the atom's factor, a column broadcast along the features
    refine (broadcastTo_ab1_abc_apply _ _ p a k).trans ?_
    refine (shapeCast_ab_ab1_apply _ _ p a (0 : Fin 1)).trans ?_
    exact congrFun (shapeCast_self μ _) _

/-- THE STORE IS THE TILE OF `G`: when the loaded blocks are the tile `t` of the operands — 32 consecutive samples of the
    atom features, of the flattened bond rows and of the per-atom factor, and the whole of the two weight parts and of the
    bias row — the entry stored at (sample `p` of the tile, feature `k`) is `G` at (sample `32 t + p`, feature `k`). -/
theorem stored_eq_G (atoms : FVec Ideal ShAtoms .f32) (bonds : FVec Ideal ShBonds .f32) (fac : FVec Ideal ShOut .f32)
    (W : FVec Ideal ShW .f32) (b : FVec Ideal ShB .f32) (t : Fin 128)
    (y : Vec Ideal S32x128x30 .f32) (x : Vec Ideal S32x128x62 .f32) (wa : Vec Ideal S62x128 .f32)
    (wb : Vec Ideal S6x128 .f32) (bias : Vec Ideal S1x128 .f32) (μ : Vec Ideal S32x128 .f32)
    (hy : ∀ (p : Fin 32) (a : Fin 128) (d : Fin 5) (g : Fin 6), y (ix3 p a (lane d g)) = bonds (ix4 (sample t p) a d g))
    (hx : ∀ (p : Fin 32) (a : Fin 128) (f : Fin 62), x (ix3 p a f) = atoms (ix3 (sample t p) a f))
    (hwa : ∀ (f : Fin 62) (k : Fin 128), wa (ix2 f k) = W (ix2 (rowA f) k))
    (hwb : ∀ (g : Fin 6) (k : Fin 128), wb (ix2 g k) = W (ix2 (rowB g) k))
    (hb : ∀ k : Fin 128, bias (ix2 (0 : Fin 1) k) = b (ix1 k))
    (hμ : ∀ (p : Fin 32) (a : Fin 128), μ (ix2 p a) = fac (ix2 (sample t p) a))
    (p : Fin 32) (k : Fin 128) :
    k0_pay1 (F := Ideal) y x wa wb bias μ (ix2 p k) = G atoms bonds fac W b (ix2 (sample t p) k) := by
  rw [stored_apply, G_ix2]
  unfold pooled dense
  simp only [hy, hx, hwa, hwb, hb, hμ]

end Cert.KernelSide

end
-- ==== Proof.HostPrefix.lean ====
/-
  The arrays the kernel region finds, as functions of the arguments.

  Before the region the program lays its operands out: the bond features `[4096, 128, 5, 6]` flattened to rows of 30
  (slot-major), the weight cut into its 62 atom rows and its 6 bond rows, the bias as one row, and the per-atom factor
  computed from the neighbour table. Each is read here at an index given by coordinates.
-/
import proofs.«101679_j13434657702340_1_alg».proof.Proof.Gen.KernelIdeal.Frame
import proofs.«101679_j13434657702340_1_alg».proof.Proof.Spec
import Idealize.ShloMosaic.Lib.ValueLayout
import Idealize.ShloMosaic.Lib.StableHlo.Run

noncomputable section

namespace Cert.KernelSide

open Cert.KernelIdeal Cert.KernelIdeal.Gen
open Idealize.ShloMosaic Idealize.ShloMosaic.TcCoe Idealize.ShloMosaic.StableHlo Idealize.ShloMosaic.ValueIdx Cert.Spec

variable (m : (ℓ : Loc nD τ sig) → Buf (Elt Ideal) ℓ)

/-- The flattened bond rows are the bond features re-laid. -/
theorem bondRows_eq (c : Dev nD) :
    (V m c main_v0 : S4096x128x30.Idx → EReal)
      = shapeCast S4096x128x30 (m ((c : Thread nD τ).loc main_arg1)) shapeCasts_S4096x128x5x6_S4096x128x30 := by
  dsimp only [V, hostOps0]; after_results <;> rfl

/-- Entry `6 d + g` of a flattened bond row is feature `g` of neighbour slot `d`. -/
theorem bondRows_apply (c : Dev nD) (s : Fin 4096) (a : Fin 128) (d : Fin 5) (g : Fin 6) :
    (V m c main_v0 : S4096x128x30.Idx → EReal) (ix3 s a (lane d g))
      = (m ((c : Thread nD τ).loc main_arg1) : S4096x128x5x6.Idx → EReal) (ix4 s a d g) := by
  rw [bondRows_eq]
  refine shapeCast_apply (s := S4096x128x5x6) (t := S4096x128x30) _ _ _ _ ?_
  rw [Shape.rowMajor_val_four, Shape.rowMajor_val_three]
  show ((s.val * 128 + a.val) * 5 + d.val) * 6 + g.val = (s.val * 128 + a.val) * 30 + (6 * d.val + g.val)
  omega

/-- The weight's atom rows. -/
theorem atomWeight_eq (c : Dev nD) :
    (V m c main_v8 : S62x128.Idx → EReal)
      = extractStridedSlice S62x128 ![0, 0] (m ((c : Thread nD τ).loc main_arg3)) slices_S68x128_S62x128_0_0 := by
  dsimp only [V, hostOps0]; after_results <;> rfl

theorem atomWeight_apply (c : Dev nD) (f : Fin 62) (k : Fin 128) :
    (V m c main_v8 : S62x128.Idx → EReal) (ix2 f k)
      = (m ((c : Thread nD τ).loc main_arg3) : S68x128.Idx → EReal) (ix2 (rowA f) k) := by
  rw [atomWeight_eq]
  exact slice2_axis0_apply 0 _ _ f k (rowA f) (Nat.zero_add _).symm

/-- The weight's bond rows. -/
theorem bondWeight_eq (c : Dev nD) :
    (V m c main_v9 : S6x128.Idx → EReal)
      = extractStridedSlice S6x128 ![62, 0] (m ((c : Thread nD τ).loc main_arg3)) slices_S68x128_S6x128_62_0 := by
  dsimp only [V, hostOps0]; after_results <;> rfl

theorem bondWeight_apply (c : Dev nD) (g : Fin 6) (k : Fin 128) :
    (V m c main_v9 : S6x128.Idx → EReal) (ix2 g k)
      = (m ((c : Thread nD τ).loc main_arg3) : S68x128.Idx → EReal) (ix2 (rowB g) k) := by
  rw [bondWeight_eq]
  exact slice2_axis0_apply 62 _ _ g k (rowB g) rfl

/-- The bias as one row. -/
theorem biasRow_eq (c : Dev nD) :
    (V m c main_v10 : S1x128.Idx → EReal)
      = shapeCast S1x128 (m ((c : Thread nD τ).loc main_arg4)) shapeCasts_S128_S1x128 := by
  dsimp only [V, hostOps0]; after_results <;> rfl

theorem biasRow_apply (c : Dev nD) (k : Fin 128) :
    (V m c main_v10 : S1x128.Idx → EReal) (ix2 (0 : Fin 1) k)
      = (m ((c : Thread nD τ).loc main_arg4) : S128.Idx → EReal) (ix1 k) := by
  rw [biasRow_eq]
  exact shapeCast_a_1a_apply _ _ (0 : Fin 1) k

/-- The number of real neighbours of each atom: the count of entries of the neighbour table that are not `-1`. -/
def degree (edges : IVec S4096x128x5 32) : IVec S4096x128 32 :=
  Host.reduce IntOp.addi (extui 32 (cmpi .ne edges (broadcastInDim S4096x128x5 ![] bcast_S_S4096x128x5 (constantI S_ 32 4294967295#32))) natLt_1_32)
    (constantI S_ 32 0#32) reducesTo_S4096x128x5_S4096x128_d2 h_S_

/-- The per-atom factor: one where the atom has a real neighbour, zero otherwise. -/
theorem factor_eq (c : Dev nD) :
    (V m c main_v7 : S4096x128.Idx → EReal)
      = uitofp (F := Ideal) .f32 (cmpi .ne (degree (m ((c : Thread nD τ).loc main_arg2))) (broadcastInDim S4096x128 ![] bcast_S_S4096x128 (constantI S_ 32 0#32))) := by
  dsimp only [V, hostOps0]; after_results <;> rfl

theorem factor_apply (c : Dev nD) (s : Fin 4096) (a : Fin 128) :
    (V m c main_v7 : S4096x128.Idx → EReal) (ix2 s a)
      = FloatOps.uitofp (F := Ideal) .f32 (IntOp.cmpi .ne (degree (m ((c : Thread nD τ).loc main_arg2)) (ix2 s a)) 0#32) := by
  rw [factor_eq]; rfl

end Cert.KernelSide

end
-- ==== Proof.Blocks.lean ====
/-
  From the tiles to the whole result array.

  The region runs over 128 grid points; point `t` works on samples `32 t … 32 t + 31`. Its blocks of the atom features,
  of the flattened bond rows and of the per-atom factor are those samples' rows of the arrays the region finds; the two
  weight parts and the bias row are fetched whole. By the tile lemma what point `t` writes back is tile `t` of the
  function `G` of the arguments, the output's tiles cover the result array (sample `s` lies in tile `s / 32`), and so the
  array ends holding `G`.
-/
import proofs.«101679_j13434657702340_1_alg».proof.Proof.Gen.KernelIdeal.Value
import proofs.«101679_j13434657702340_1_alg».proof.Proof.Payload
import proofs.«101679_j13434657702340_1_alg».proof.Proof.HostPrefix
import Idealize.ShloMosaic.Lib.Pipeline.Value

noncomputable section

namespace Cert.KernelSide

open Cert.KernelIdeal Cert.KernelIdeal.Gen Cert.KernelIdeal.Value
open Idealize.ShloMosaic Idealize.ShloMosaic.TcCoe Idealize.SL.Sem Idealize.ShloMosaic.ValueIdx Cert.Spec
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- A grid point's tile number. -/
abbrev tileOf (t : Fin cfg0.N) : Fin 128 := ⟨t.val, by have h : t.val < grid0.N := t.isLt; rw [N_0] at h; exact h⟩

/-- The printed index maps, decided over the grid: the three per-sample windows and the output move with the point along
    the sample axis; the weight parts and the bias row stay. -/
theorem index_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## Each input block, read at an entry -/

/-- The atom-feature block at point `t` holds the features of samples `32 t + p`. -/
theorem atomsBlock_apply (c : Dev nD) (t : Fin cfg0.N) (p : Fin 32) (a : Fin 128) (f : Fin 62) :
    (iblk m c 0 t : Vec Ideal S32x128x62 .f32) (ix3 p a f)
      = (m ((c : Thread nD τ).loc main_arg0) : S4096x128x62.Idx → EReal) (ix3 (sample (tileOf t) p) a f) := by
  obtain ⟨e0, e1, e2, -⟩ := index_facts t
  unfold iblk
  rw [View.read_apply]
  show V m c main_arg0 _ = _
  rw [V_main_arg0]
  congr 1
  funext d
  apply Fin.ext
  match d with
  | ⟨0, _⟩ => show win0_0.index t (0 : Fin 3) * 32 + 1 * p.val = 32 * t.val + p.val; rw [e0]; omega
  | ⟨1, _⟩ => show win0_0.index t (1 : Fin 3) * 128 + 1 * a.val = a.val; rw [e1]; omega
  | ⟨2, _⟩ => show win0_0.index t (2 : Fin 3) * 62 + 1 * f.val = f.val; rw [e2]; omega

/-- The bond-row block at point `t`, at entry `6 d + g`, holds feature `g` of slot `d` of samples `32 t + p`. -/
theorem bondsBlock_apply (c : Dev nD) (t : Fin cfg0.N) (p : Fin 32) (a : Fin 128) (d : Fin 5) (g : Fin 6) :
    (iblk m c 1 t : Vec Ideal S32x128x30 .f32) (ix3 p a (lane d g))
      = (m ((c : Thread nD τ).loc main_arg1) : S4096x128x5x6.Idx → EReal) (ix4 (sample (tileOf t) p) a d g) := by
  obtain ⟨-, -, -, e0, e1, e2, -⟩ := index_facts t
  unfold iblk
  rw [View.read_apply]
  show V m c main_v0 _ = _
  refine Eq.trans (congrArg (V m c main_v0 : S4096x128x30.Idx → EReal) ?_) (bondRows_apply m c (sample (tileOf t) p) a d g)
  funext e
  apply Fin.ext
  match e with
  | ⟨0, _⟩ => show win0_1.index t (0 : Fin 3) * 32 + 1 * p.val = 32 * t.val + p.val; rw [e0]; omega
  | ⟨1, _⟩ => show win0_1.index t (1 : Fin 3) * 128 + 1 * a.val = a.val; rw [e1]; omega
  | ⟨2, _⟩ => show win0_1.index t (2 : Fin 3) * 30 + 1 * (6 * d.val + g.val) = 6 * d.val + g.val; rw [e2]; omega

/-- The factor block at point `t` holds the factors of samples `32 t + p`. -/
theorem factorBlock_apply (c : Dev nD) (t : Fin cfg0.N) (p : Fin 32) (a : Fin 128) :
    (iblk m c 2 t : Vec Ideal S32x128 .f32) (ix2 p a)
      = (V m c main_v7 : S4096x128.Idx → EReal) (ix2 (sample (tileOf t) p) a) := by
  obtain ⟨-, -, -, -, -, -, e0, e1, -⟩ := index_facts t
  unfold iblk
  rw [View.read_apply]
  show V m c main_v7 _ = _
  refine congrArg (V m c main_v7 : S4096x128.Idx → EReal) ?_
  funext e
  apply Fin.ext
  match e with
  | ⟨0, _⟩ => show win0_2.index t (0 : Fin 2) * 32 + 1 * p.val = 32 * t.val + p.val; rw [e0]; omega
  | ⟨1, _⟩ => show win0_2.index t (1 : Fin 2) * 128 + 1 * a.val = a.val; rw [e1]; omega

/-- The atom rows of the weight are fetched whole. -/
theorem atomWeightBlock_apply (c : Dev nD) (t : Fin cfg0.N) (f : Fin 62) (k : Fin 128) :
    (iblk m c 3 t : Vec Ideal S62x128 .f32) (ix2 f k)
      = (m ((c : Thread nD τ).loc main_arg3) : S68x128.Idx → EReal) (ix2 (rowA f) k) := by
  obtain ⟨-, -, -, -, -, -, -, -, e0, e1, -⟩ := index_facts t
  unfold iblk
  rw [View.read_apply]
  show V m c main_v8 _ = _
  refine Eq.trans (congrArg (V m c main_v8 : S62x128.Idx → EReal) ?_) (atomWeight_apply m c f k)
  funext e
  apply Fin.ext
  match e with
  | ⟨0, _⟩ => show win0_3.index t (0 : Fin 2) * 62 + 1 * f.val = f.val; rw [e0]; omega
  | ⟨1, _⟩ => show win0_3.index t (1 : Fin 2) * 128 + 1 * k.val = k.val; rw [e1]; omega

/-- So are its bond rows, -/
theorem bondWeightBlock_apply (c : Dev nD) (t : Fin cfg0.N) (g : Fin 6) (k : Fin 128) :
    (iblk m c 4 t : Vec Ideal S6x128 .f32) (ix2 g k)
      = (m ((c : Thread nD τ).loc main_arg3) : S68x128.Idx → EReal) (ix2 (rowB g) k) := by
  obtain ⟨-, -, -, -, -, -, -, -, -, -, e0, e1, -⟩ := index_facts t
  unfold iblk
  rw [View.read_apply]
  show V m c main_v9 _ = _
  refine Eq.trans (congrArg (V m c main_v9 : S6x128.Idx → EReal) ?_) (bondWeight_apply m c g k)
  funext e
  apply Fin.ext
  match e with
  | ⟨0, _⟩ => show win0_4.index t (0 : Fin 2) * 6 + 1 * g.val = g.val; rw [e0]; omega
  | ⟨1, _⟩ => show win0_4.index t (1 : Fin 2) * 128 + 1 * k.val = k.val; rw [e1]; omega

/-- and the bias row. -/
theorem biasBlock_apply (c : Dev nD) (t : Fin cfg0.N) (k : Fin 128) :
    (iblk m c 5 t : Vec Ideal S1x128 .f32) (ix2 (0 : Fin 1) k)
      = (m ((c : Thread nD τ).loc main_arg4) : S128.Idx → EReal) (ix1 k) := by
  obtain ⟨-, -, -, -, -, -, -, -, -, -, -, -, e0, e1, -⟩ := index_facts t
  unfold iblk
  rw [View.read_apply]
  show V m c main_v10 _ = _
  refine Eq.trans (congrArg (V m c main_v10 : S1x128.Idx → EReal) ?_) (biasRow_apply m c k)
  funext e
  apply Fin.ext
  match e with
  | ⟨0, _⟩ => show win0_5.index t (0 : Fin 2) * 1 + 1 * 0 = 0; rw [e0]
  | ⟨1, _⟩ => show win0_5.index t (1 : Fin 2) * 128 + 1 * k.val = k.val; rw [e1]; omega

/-! ## The result array -/

/-- What the kernel program computes on core `c`: `G` of the arguments, with the factor the region finds. -/
abbrev result (c : Dev nD) : FVec Ideal ShOut .f32 :=
  G (m ((c : Thread nD τ).loc main_arg0)) (m ((c : Thread nD τ).loc main_arg1)) (V m c main_v7)
    (m ((c : Thread nD τ).loc main_arg3)) (m ((c : Thread nD τ).loc main_arg4))

/-- WHAT POINT `t` WRITES BACK is tile `t` of `result`. -/
theorem flushed_eq (c : Dev nD) (t : Fin cfg0.N) :
    (dats m 0 c).flushed 6 t = ((cfg0.win 6).blk t).view.read (Elt Ideal) (result m c) := by
  rw [flushed6]
  unfold out0_6
  rw [View.canon_unit_zero zero2]
  simp only [View.ld_unit_zero (S := S32x128x30) zero3, View.ld_unit_zero (S := S32x128x62) zero3,
    View.ld_unit_zero (S := S62x128) zero2, View.ld_unit_zero (S := S6x128) zero2,
    View.ld_unit_zero (S := S1x128) zero2, View.ld_unit_zero (S := S32x128) zero2]
  obtain ⟨-, -, -, -, -, -, -, -, -, -, -, -, -, -, e0, e1⟩ := index_facts t
  funext j
  obtain ⟨p, k, rfl⟩ : ∃ (p : Fin 32) (k : Fin 128), j = ix2 p k := ⟨j 0, j 1, eq_ix2 j⟩
  show k0_pay1 (F := Ideal) (iblk m c 1 t) (iblk m c 0 t) (iblk m c 3 t) (iblk m c 4 t) (iblk m c 5 t) (iblk m c 2 t) (ix2 p k)
    = result m c (((cfg0.win 6).blk t).view.emb (ix2 p k))
  have he : ((cfg0.win 6).blk t).view.emb (ix2 p k) = (ix2 (sample (tileOf t) p) k : S4096x128.Idx) := by
    funext e
    apply Fin.ext
    match e with
    | ⟨0, _⟩ => show win0_6.index t (0 : Fin 2) * 32 + 1 * p.val = 32 * t.val + p.val; rw [e0]; omega
    | ⟨1, _⟩ => show win0_6.index t (1 : Fin 2) * 128 + 1 * k.val = k.val; rw [e1]; omega
  refine Eq.trans ?_ (congrArg (result m c) he.symm)
  exact stored_eq_G (m ((c : Thread nD τ).loc main_arg0)) (m ((c : Thread nD τ).loc main_arg1)) (V m c main_v7)
    (m ((c : Thread nD τ).loc main_arg3)) (m ((c : Thread nD τ).loc main_arg4)) (tileOf t)
    (iblk m c 1 t) (iblk m c 0 t) (iblk m c 3 t) (iblk m c 4 t) (iblk m c 5 t) (iblk m c 2 t)
    (bondsBlock_apply m c t) (atomsBlock_apply m c t) (atomWeightBlock_apply m c t) (bondWeightBlock_apply m c t)
    (biasBlock_apply m c t) (factorBlock_apply m c t) p k

/-- An index of the result array is in point `t`'s tile iff each coordinate is in the tile's range on its axis. -/
theorem mem_tile (t : Fin cfg0.N) (i : S4096x128.Idx) :
    i ∈ ((cfg0.win 6).blk t).view.set ↔ ∀ a : Fin 2, win0_6.index t a * S32x128.size a ≤ (i a).val ∧ (i a).val < win0_6.index t a * S32x128.size a + S32x128.size a := by
  show i ∈ ((View.whole main_v11).slice (win0_6.rect t)).set ↔ _
  rw [View.set_slice_whole, Rect.mem_set_unit]
  exact Iff.rfl

/-- Every index of the result array is in some point's tile: sample `s` is in tile `s / 32`. -/
theorem tiles_cover (i : S4096x128.Idx) :
    ∃ t : Fin cfg0.N, (cfg0.win 6).flush t = true ∧ i ∈ ((cfg0.win 6).blk t).view.set := by
  have hi0 : (i 0).val < 4096 := (i 0).isLt
  have hi1 : (i 1).val < 128 := (i 1).isLt
  obtain ⟨t, ht⟩ : ∃ t : Fin cfg0.N, t.val = (i 0).val / 32 :=
    ⟨⟨(i 0).val / 32, by rw [show cfg0.N = 128 from N_0]; omega⟩, rfl⟩
  obtain ⟨-, -, -, -, -, -, -, -, -, -, -, -, -, -, e0, e1⟩ := index_facts t
  refine ⟨t, flush0_6 t, ?_⟩
  rw [mem_tile]
  intro a
  match a with
  | ⟨0, _⟩ => show win0_6.index t (0 : Fin 2) * 32 ≤ (i 0).val ∧ (i 0).val < win0_6.index t (0 : Fin 2) * 32 + 32; rw [e0]; omega
  | ⟨1, _⟩ => show win0_6.index t (1 : Fin 2) * 128 ≤ (i 1).val ∧ (i 1).val < win0_6.index t (1 : Fin 2) * 128 + 128; rw [e1]; omega

/-- THE RESULT ARRAY after the run is `result`. -/
theorem final (c : Dev nD) : (dats m 0 c).arrAt 6 cfg0.N = result m c :=
  (dats m 0 c).arrAt_eq_of_cover 6 (result m c) (fun t _ => flushed_eq m c t) tiles_cover

/-- The run, read: the result array at `result`, the arguments unchanged. -/
theorem run : θ_run defs (onTc (τ := τ) (main (F := Ideal))) ⟨m, fun _ => 0, ρ⟩ fun r => ∀ c : Dev nD,
      r.2.mem ((c : Thread nD τ).loc main_v11) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelSide

end
-- ==== Proof.RefSide.lean ====
/-
  The reference program's result is the function `Cert.Spec.G`.

  Read at (sample `s`, feature `k`), the reference's last reduction sums over the atoms `a` the product of the dense layer
  at (s, a, k) with the per-atom factor broadcast along the features. The dense layer there is ONE contraction over the 68
  rows of the weight against the atom's 62 features joined with its 6 summed bond features; the join reads its first piece
  below row 62 and its second piece from row 62 on, so the contraction splits into the two sums of `Cert.Spec.dense`. Every
  sum starts from the literal zero, which is the neutral element.
-/
import proofs.«101679_j13434657702340_1_alg».proof.Proof.Gen.ReferenceIdeal.Read
import proofs.«101679_j13434657702340_1_alg».proof.Proof.Spec

noncomputable section

open scoped BigOperators

namespace Cert.RefSide

open Cert.ReferenceIdeal Cert.ReferenceIdeal.Gen Cert.ReferenceIdeal.Read
open Idealize.ShloMosaic Idealize.ShloMosaic.ValueIdx Cert.Spec

/-- The reference's per-atom factor as a `[4096, 128]` array: its `[4096, 128, 1]` column read at the unit coordinate. -/
def factor (edges : IVec S4096x128x5 32) : FVec Ideal ShOut .f32 :=
  fun i => val_main_v7 (F := Ideal) edges (ix3 (⟨(i 0).val, idx2_lt0 i⟩ : Fin 4096) (⟨(i 1).val, idx2_lt1 i⟩ : Fin 128) (0 : Fin 1))

theorem factor_ix2 (edges : IVec S4096x128x5 32) (s : Fin 4096) (a : Fin 128) :
    factor edges (ix2 s a) = val_main_v7 (F := Ideal) edges (ix3 s a (0 : Fin 1)) := rfl

/-- The literal the reference's float sums start from is zero. -/
theorem init_zero : (val_main_cst (F := Ideal)) (Shape.Idx.first h_S_) = 0 := Ideal.ofBits_zero_f32
theorem init2_zero : (val_main_cst_2 (F := Ideal)) (Shape.Idx.first h_S_) = 0 := Ideal.ofBits_zero_f32

/-- The joined features below row 62 are the atom's own features. -/
theorem joined_atom (x0 : FVec Ideal S4096x128x62 .f32) (x1 : FVec Ideal S4096x128x5x6 .f32) (s : Fin 4096) (a : Fin 128) (f : Fin 62) :
    val_main_v9 (F := Ideal) x0 x1 (ix3 s a (rowA f)) = x0 (ix3 s a f) := by
  unfold val_main_v9
  refine concatenate_pair_apply_left (2 : Fin 3) x0 (val_main_v8 (F := Ideal) x1) _ (ix3 s a (rowA f)) rfl (ix3 s a f : S4096x128x62.Idx) fun b => ?_
  match b with
  | ⟨0, _⟩ => rfl
  | ⟨1, _⟩ => rfl
  | ⟨2, _⟩ => rfl

/-- From row 62 on they are the bond features summed over the five neighbour slots. -/
theorem joined_bond (x0 : FVec Ideal S4096x128x62 .f32) (x1 : FVec Ideal S4096x128x5x6 .f32) (s : Fin 4096) (a : Fin 128) (g : Fin 6) :
    val_main_v9 (F := Ideal) x0 x1 (ix3 s a (rowB g)) = ∑ d : Fin 5, x1 (ix4 s a d g) := by
  unfold val_main_v9
  refine (concatenate_pair_apply_right (2 : Fin 3) x0 (val_main_v8 (F := Ideal) x1) _ (ix3 s a (rowB g)) rfl rfl (ix3 s a g : S4096x128x6.Idx) (fun b hb => ?_) ?_).trans ?_
  · match b with
    | ⟨0, _⟩ => rfl
    | ⟨1, _⟩ => rfl
    | ⟨2, _⟩ => exact absurd rfl hb
  · show g.val + 62 = 62 + g.val
    omega
  · rw [val_main_v8_apply, init_zero, zero_add]
    refine Finset.sum_congr rfl fun d _ => congrArg x1 (funext fun e => Fin.ext ?_)
    match e with
    | ⟨0, _⟩ => rfl
    | ⟨1, _⟩ => rfl
    | ⟨2, _⟩ => rfl
    | ⟨3, _⟩ => rfl

/-- THE REFERENCE'S RESULT is `G` of the arguments and its own per-atom factor. -/
theorem result_eq (x0 : FVec Ideal S4096x128x62 .f32) (x1 : FVec Ideal S4096x128x5x6 .f32) (x2 : IVec S4096x128x5 32)
    (x3 : FVec Ideal S68x128 .f32) (x4 : FVec Ideal S128 .f32) :
    val_main_v16 (F := Ideal) x0 x1 x2 x3 x4 = G x0 x1 (factor x2) x3 x4 := by
  funext i
  obtain ⟨s, k, rfl⟩ : ∃ (s : Fin 4096) (k : Fin 128), i = ix2 s k := ⟨i 0, i 1, eq_ix2 i⟩
  rw [G_ix2, val_main_v16_apply, init2_zero, zero_add]
  unfold pooled
  refine Finset.sum_congr rfl fun a _ => ?_
  have e16 : idx_main_v16 (ix2 s k) a = ix3 s a k := funext fun d => Fin.ext (by
    match d with
    | ⟨0, _⟩ => rfl
    | ⟨1, _⟩ => rfl
    | ⟨2, _⟩ => rfl)
  have e14 : idx_main_v14 (ix3 s a k) = ix3 s a (0 : Fin 1) := funext fun d => Fin.ext (by
    match d with
    | ⟨0, _⟩ => rfl
    | ⟨1, _⟩ => rfl
    | ⟨2, _⟩ => rfl)
  have e11 : idx_main_v11 (idx_main_v12 (ix3 s a k)) = ix1 k := funext fun d => Fin.ext (by
    match d with
    | ⟨0, _⟩ => rfl)
  have el : ∀ r : Fin 68, lidx_main_v10 (ix3 s a k) r = ix3 s a r := fun r => funext fun d => Fin.ext (by
    match d with
    | ⟨0, _⟩ => rfl
    | ⟨1, _⟩ => rfl
    | ⟨2, _⟩ => rfl)
  have er : ∀ r : Fin 68, ridx_main_v10 (ix3 s a k) r = ix2 r k := fun r => funext fun d => Fin.ext (by
    match d with
    | ⟨0, _⟩ => rfl
    | ⟨1, _⟩ => rfl)
  rw [e16, val_main_v15_apply, val_main_v13_apply, val_main_v14_apply, val_main_v12_apply, val_main_v11_apply,
    val_main_v10_apply, e14, e11, factor_ix2]
  simp only [el, er, Ideal.mulf_def, Ideal.addf_def]
  unfold dense
  rw [sum_rows_split]
  simp only [joined_atom, joined_bond]

end Cert.RefSide

end
-- ==== Proof.lean ====
/-
  The certificate's five claims.

  Both idealized programs compute, for every sample `s` and output feature `k`,

    Σ_a ((Σ_{f<62} atoms[s,a,f] · W[f,k] + Σ_{g<6} (Σ_{d<5} bonds[s,a,d,g]) · W[62+g,k]) + b[k]) · μ[s,a],

  where `μ[s,a]` is one when atom `a` of sample `s` has a neighbour entry other than `-1` and zero otherwise
  (`Cert.Spec.G`). The kernel reaches it tile by tile of 32 samples, with the weight cut into its atom rows and bond rows
  and two matrix products added (`Cert.KernelSide.run`); the reference by one contraction over all 68 rows against the
  joined features (`Cert.RefSide.result_eq`). The two lay the sums out differently — 62 + 6 against 68 terms, five slots
  added left to right against a sum from zero — which commutativity and associativity of addition in the extended reals
  reconcile; no cancellation or distributivity is used, so the finiteness precondition is never opened. The per-atom
  factor is computed by the same integer operations of the neighbour table in both programs (`factor_bridge`).
  The frames of the two kernel programs are the generated ones; the reference's is its generated run with the result
  dropped; the idealization rewrote no operation, so nothing is to be preserved.
-/
import proofs.«101679_j13434657702340_1_alg».proof.Defs
import proofs.«101679_j13434657702340_1_alg».proof.Proof.Gen.Kernel
import proofs.«101679_j13434657702340_1_alg».proof.Proof.Gen.Kernel.Frame
import proofs.«101679_j13434657702340_1_alg».proof.Proof.Gen.KernelIdeal
import proofs.«101679_j13434657702340_1_alg».proof.Proof.Gen.KernelIdeal.Frame
import proofs.«101679_j13434657702340_1_alg».proof.Proof.Gen.KernelIdeal.Value
import proofs.«101679_j13434657702340_1_alg».proof.Proof.Gen.ReferenceIdeal
import proofs.«101679_j13434657702340_1_alg».proof.Proof.Gen.ReferenceIdeal.Run
import proofs.«101679_j13434657702340_1_alg».proof.Proof.Gen.ReferenceIdeal.Read
import proofs.«101679_j13434657702340_1_alg».proof.Proof.Gen.Pre_finite_inputs
import proofs.«101679_j13434657702340_1_alg».proof.Proof.Blocks
import proofs.«101679_j13434657702340_1_alg».proof.Proof.RefSide
import Idealize.ShloMosaic.Adequacy
import Idealize.ShloMosaic.Init

noncomputable section

namespace Cert.Proof

open Idealize.ShloMosaic Idealize.ShloMosaic.TcCoe Idealize.SL.Sem Idealize.ShloMosaic.ValueIdx

/-- The factor the kernel's region finds is the reference's: both are `1` or `0` according to whether the count of
    neighbour entries other than `-1` is not zero, the count taken by the same reduction of the same table; the reference
    merely carries it as a column `[4096, 128, 1]`. -/
theorem factor_bridge (m : (ℓ : Loc Cert.KernelIdeal.nD Cert.KernelIdeal.τ Cert.KernelIdeal.sig) → Buf (Elt Ideal) ℓ)
    (c : Dev Cert.KernelIdeal.nD) :
    (Cert.KernelIdeal.Gen.V m c Cert.KernelIdeal.main_v7 : Cert.KernelIdeal.S4096x128.Idx → EReal)
      = Cert.RefSide.factor (m ((c : Thread Cert.KernelIdeal.nD Cert.KernelIdeal.τ).loc Cert.KernelIdeal.main_arg2)) := by
  funext i
  obtain ⟨s, a, rfl⟩ : ∃ (s : Fin 4096) (a : Fin 128), i = ix2 s a := ⟨i 0, i 1, eq_ix2 i⟩
  rw [Cert.KernelSide.factor_apply, Cert.RefSide.factor_ix2, Cert.ReferenceIdeal.Read.val_main_v7_apply,
    Cert.ReferenceIdeal.Read.val_main_v6_apply, Cert.ReferenceIdeal.Read.val_main_v4_apply,
    Cert.ReferenceIdeal.Read.val_main_v5_apply]
  have e4 : Cert.ReferenceIdeal.Read.idx_main_v4 (ix3 s a (0 : Fin 1)) = ix2 s a := funext fun d => Fin.ext (by
    match d with
    | ⟨0, _⟩ => rfl
    | ⟨1, _⟩ => rfl)
  rw [e4]
  rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the result array at `G` of the arguments. -/
theorem algebraic : Cert.algebraic_KernelIdeal_ReferenceIdeal := by
  intro m ρ m' ρ' _ hagree
  refine ⟨fun c => Cert.KernelSide.result m c, Cert.KernelSide.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.RefSide.result_eq, (hagree c).1, (hagree c).2.1, (hagree c).2.2.1,
    (hagree c).2.2.2.1, (hagree c).2.2.2.2]
  show _ = Spec.G _ _ (Cert.KernelIdeal.Gen.V m c Cert.KernelIdeal.main_v7) _ _
  rw [factor_bridge m c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
